-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S8192x1024 : Shape := ⟨2, ![8192, 1024]⟩
abbrev S65536x8 : Shape := ⟨2, ![65536, 8]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S65536x8 : S_.BroadcastsInDim S65536x8 (![] : Fin 0 → Fin S65536x8.rank)
  reducesTo_S65536x8_S_d0_1 : S65536x8.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S4096x8192 .f32) (main_arg1 : IVec S8192x1024 32) (main_arg2 : FVec F S65536x8 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S65536x8 .f32 := Host.absf main_arg2
  let main_cst_0 : FVec F S_ .f32 := constant S_ .f32 0x7F800000#32
  let main_v5 : FVec F S65536x8 .f32 := broadcastInDim S65536x8 ![] bcast_S_S65536x8 main_cst_0
  let main_v6 : IVec S65536x8 1 := cmpf .olt main_v4 main_v5
  let main_c_1 : IVec S_ 1 := constantI S_ 1 1#1
  let main_v7 : IVec S_ 1 := (fun x v => Host.reduce IntOp.andi x v reducesTo_S65536x8_S_d0_1 h_S_) main_v6 main_c_1
  let main_v8 : IVec S_ 1 := andi main_v3 main_v7
  let main_c_2 : IVec S_ 32 := constantI S_ 32 0#32
  let main_v9 : IVec S8192x1024 32 := broadcastInDim S8192x1024 ![] bcast_S_S8192x1024 main_c_2
  let main_v10 : IVec S8192x1024 1 := cmpi .sge main_arg1 main_v9
  let main_c_3 : IVec S_ 1 := constantI S_ 1 1#1
  let main_v11 : IVec S_ 1 := (fun x v => Host.reduce IntOp.andi x v reducesTo_S8192x1024_S_d0_1 h_S_) main_v10 main_c_3
  let main_v12 : IVec S_ 1 := andi main_v8 main_v11
  let main_c_4 : IVec S_ 32 := constantI S_ 32 65536#32
  let main_v13 : IVec S8192x1024 32 := broadcastInDim S8192x1024 ![] bcast_S_S8192x1024 main_c_4
  let main_v14 : IVec S8192x1024 1 := cmpi .slt main_arg1 main_v13
  let main_c_5 : IVec S_ 1 := constantI S_ 1 1#1
  let main_v15 : IVec S_ 1 := (fun x v => Host.reduce IntOp.andi x v reducesTo_S8192x1024_S_d0_1 h_S_) main_v14 main_c_5
  fn_part1 (F := F) main_v12 main_v15
-- ==== Kernel.lean ====
abbrev S4096x8192 : Shape := ⟨2, ![4096, 8192]⟩
abbrev S8192x1024 : Shape := ⟨2, ![8192, 1024]⟩
abbrev S65536x8 : Shape := ⟨2, ![65536, 8]⟩
abbrev S8192x1024x1 : Shape := ⟨3, ![8192, 1024, 1]⟩
abbrev S8192x1024x8 : Shape := ⟨3, ![8192, 1024, 8]⟩
abbrev S8192x8192 : Shape := ⟨2, ![8192, 8192]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 9
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S8192x1024, .i32⟩
  | .hbm, ⟨2, _⟩ => ⟨S65536x8, .f32⟩
  | .hbm, ⟨3, _⟩ => ⟨S65536x8, .bf16⟩
  | .hbm, ⟨4, _⟩ => ⟨S4096x8192, .bf16⟩
  | .hbm, ⟨5, _⟩ => ⟨S8192x1024x1, .i32⟩
  | .hbm, ⟨6, _⟩ => ⟨S8192x1024x8, .bf16⟩
  | .hbm, ⟨7, _⟩ => ⟨S8192x8192, .bf16⟩
  | .hbm, ⟨8, _⟩ => ⟨S4096x8192, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .f32⟩
  | .local _ .vmem, ⟨5, _⟩ => ⟨S1024x2048, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bitsLt_bf16_f32 : FTy.bits .bf16 < FTy.bits .f32
  bcast_S8192x1024_S8192x1024x1_0_1 : S8192x1024.BroadcastsInDim S8192x1024x1 (![0, 1] : Fin 2 → Fin S8192x1024x1.rank)
  shapeCasts_S8192x1024x8_S8192x8192 : S8192x1024x8.ShapeCasts S8192x8192
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  gather_S65536x8_S8192x1024x1_S8192x1024x8_2_0_n_n_0_2_18_wf : GatherDims.WF S65536x8 S8192x1024x1 S8192x1024x8 [2] [0] [] [0] [] 2 ![1, 8]
  dot_S1024x1024_S2048x1024_S1024x2048_1_1_0_0_n_n_wf : DotDims.WF S1024x1024 S2048x1024 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x8192.size a
  hwx0_0 : ∀ i : grid0.Coords, EltTy.bits .bf16 = 32 ∨ (Rect.block (s := S4096x8192) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S8192x8192.size a
  hwx0_1 : ∀ i : grid0.Coords, EltTy.bits .bf16 = 32 ∨ (Rect.block (s := S8192x8192) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S4096x8192.size a
  hwx0_2 : ∀ i : grid0.Coords, EltTy.bits .f32 = 32 ∨ (Rect.block (s := S4096x8192) S1024x2048.size (cc0_transform_2 i) (hinb0_2 i)).WholeWords (EltTy.packing .f32)

variable [Facts₀]

def gather_S65536x8_S8192x1024x1_S8192x1024x8_2_0_n_n_0_2_18 : GatherDims S65536x8 S8192x1024x1 S8192x1024x8 where
  offsetDims := [2]
  collapsedSliceDims := [0]
  operandBatchingDims := []
  startIndicesBatchingDims := []
  startIndexMap := [0]
  indexVectorDim := 2
  sliceSizes := ![1, 8]
  wf := gather_S65536x8_S8192x1024x1_S8192x1024x8_2_0_n_n_0_2_18_wf
def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S8192x1024 : Shape := ⟨2, ![8192, 1024]⟩
abbrev S65536x8 : Shape := ⟨2, ![65536, 8]⟩
abbrev S_ : Shape := ⟨0, ![]⟩
abbrev S8192x1024x1 : Shape := ⟨3, ![8192, 1024, 1]⟩
abbrev S1 : Shape := ⟨1, ![1]⟩
abbrev S1x1x1 : Shape := ⟨3, ![1, 1, 1]⟩
abbrev S8192x1024x8 : Shape := ⟨3, ![8192, 1024, 8]⟩
abbrev S8192x8192 : Shape := ⟨2, ![8192, 8192]⟩

abbrev nBuf : Space → Nat
  | .hbm => 35
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x1024, .i32⟩
  | .hbm, ⟨2, _⟩ => ⟨S65536x8, .f32⟩
  | .hbm, ⟨3, _⟩ => ⟨S_, .i32⟩
  | .hbm, ⟨4, _⟩ => ⟨S8192x1024, .i32⟩
  | .hbm, ⟨5, _⟩ => ⟨S8192x1024, .i1⟩
  | .hbm, ⟨6, _⟩ => ⟨S_, .i32⟩
  | .hbm, ⟨7, _⟩ => ⟨S8192x1024, .i32⟩
  | .hbm, ⟨8, _⟩ => ⟨S8192x1024, .i32⟩
  | .hbm, ⟨9, _⟩ => ⟨S8192x1024, .i32⟩
  | .hbm, ⟨10, _⟩ => ⟨S8192x1024x1, .i32⟩
  | .hbm, ⟨11, _⟩ => ⟨S1, .i32⟩
  | .hbm, ⟨12, _⟩ => ⟨S_, .i32⟩
  | .hbm, ⟨13, _⟩ => ⟨S8192x1024x1, .i32⟩
  | .hbm, ⟨14, _⟩ => ⟨S8192x1024x1, .i1⟩
  | .hbm, ⟨15, _⟩ => ⟨S1x1x1, .i32⟩
  | .hbm, ⟨16, _⟩ => ⟨S8192x1024x1, .i32⟩
  | .hbm, ⟨17, _⟩ => ⟨S8192x1024x1, .i1⟩
  | .hbm, ⟨18, _⟩ => ⟨S8192x1024x1, .i1⟩
  | .hbm, ⟨19, _⟩ => ⟨S_, .i1⟩
  | .hbm, ⟨20, _⟩ => ⟨S8192x1024, .i1⟩
  | .hbm, ⟨21, _⟩ => ⟨S8192x1024x8, .f32⟩
  | .hbm, ⟨22, _⟩ => ⟨S8192x1024x8, .i1⟩
  | .hbm, ⟨23, _⟩ => ⟨S_, .f32⟩
  | .hbm, ⟨24, _⟩ => ⟨S8192x1024x8, .f32⟩
  | .hbm, ⟨25, _⟩ => ⟨S8192x1024x8, .f32⟩
  | .hbm, ⟨26, _⟩ => ⟨S8192x8192, .f32⟩
  | .hbm, ⟨27, _⟩ => ⟨S_, .f32⟩
  | .hbm, ⟨28, _⟩ => ⟨S4096x8192, .f32⟩
  | .hbm, ⟨29, _⟩ => ⟨S4096x8192, .f32⟩
  | .hbm, ⟨30, _⟩ => ⟨S8192x8192, .f32⟩
  | .hbm, ⟨31, _⟩ => ⟨S4096x8192, .f32⟩
  | .hbm, ⟨32, _⟩ => ⟨S_, .f32⟩
  | .hbm, ⟨33, _⟩ => ⟨S4096x8192, .f32⟩
  | .hbm, ⟨34, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_cst : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_cst_0 : Ref sig .tc := ⟨.hbm, 32, rfl⟩
abbrev main_v6 : Ref sig .tc := ⟨.hbm, 33, rfl⟩
abbrev main_v7 : Ref sig .tc := ⟨.hbm, 34, rfl⟩

abbrev nD : Nat := 1
abbrev τ : Topo := Topo.v7x

variable {F : FTy → Type} [FloatOps F]

class Facts₀ : Prop where
  bcast_S_S8192x1024 : S_.BroadcastsInDim S8192x1024 (![] : Fin 0 → Fin S8192x1024.rank)
  bcast_S8192x1024_S8192x1024x1_0_1 : S8192x1024.BroadcastsInDim S8192x1024x1 (![0, 1] : Fin 2 → Fin S8192x1024x1.rank)
  bcast_S_S8192x1024x1 : S_.BroadcastsInDim S8192x1024x1 (![] : Fin 0 → Fin S8192x1024x1.rank)
  bcast_S1_S1x1x1_2 : S1.BroadcastsInDim S1x1x1 (![2] : Fin 1 → Fin S1x1x1.rank)
  bcast_S1x1x1_S8192x1024x1_0_1_2 : S1x1x1.BroadcastsInDim S8192x1024x1 (![0, 1, 2] : Fin 3 → Fin S8192x1024x1.rank)
  reducesTo_S8192x1024x1_S8192x1024_d2 : S8192x1024x1.ReducesTo [2] S8192x1024
  h_S_ : 0 < S_.numel
  bcast_S8192x1024_S8192x1024x8_0_1 : S8192x1024.BroadcastsInDim S8192x1024x8 (![0, 1] : Fin 2 → Fin S8192x1024x8.rank)
  bcast_S_S8192x1024x8 : S_.BroadcastsInDim S8192x1024x8 (![] : Fin 0 → Fin S8192x1024x8.rank)
  shapeCasts_S8192x1024x8_S8192x8192 : S8192x1024x8.ShapeCasts S8192x8192
  bcast_S_S4096x8192 : S_.BroadcastsInDim S4096x8192 (![] : Fin 0 → Fin S4096x8192.rank)
  transposes_S8192x8192_S8192x8192_1_0 : S8192x8192.Transposes [1, 0] S8192x8192
  gather_S65536x8_S8192x1024x1_S8192x1024x8_2_0_n_n_0_2_18_wf : GatherDims.WF S65536x8 S8192x1024x1 S8192x1024x8 [2] [0] [] [0] [] 2 ![1, 8]
  dot_S4096x8192_S8192x8192_S4096x8192_1_0_0_1_n_n_wf : DotDims.WF S4096x8192 S8192x8192 S4096x8192 [1] [0] [0] [1] [] []

variable [Facts₀]

def gather_S65536x8_S8192x1024x1_S8192x1024x8_2_0_n_n_0_2_18 : GatherDims S65536x8 S8192x1024x1 S8192x1024x8 where
  offsetDims := [2]
  collapsedSliceDims := [0]
  operandBatchingDims := []
  startIndicesBatchingDims := []
  startIndexMap := [0]
  indexVectorDim := 2
  sliceSizes := ![1, 8]
  wf := gather_S65536x8_S8192x1024x1_S8192x1024x8_2_0_n_n_0_2_18_wf
def dot_S4096x8192_S8192x8192_S4096x8192_1_0_0_1_n_n : DotDims S4096x8192 S8192x8192 S4096x8192 where
  lhsContracting := [1]
  rhsContracting := [0]
  lhsNonContracting := [0]
  rhsNonContracting := [1]
  lhsBatch := []
  rhsBatch := []
  wf := dot_S4096x8192_S8192x8192_S4096x8192_1_0_0_1_n_n_wf

class Facts : Prop extends Facts₀ where

variable [Facts]
-- ==== Proof.KernelPay.lean ====
/-
  The kernel body's three stored values, read at one entry of the 1024 × 2048 output block.

  The first store writes zeros. The second adds to what the block held the product of the x-tile and the transposed
  W-tile: at entry (p, q) the sum over the 1024 places kk of x-tile[p, kk] · W-tile[q, kk] (both tiles are contracted
  along their second axis). The third, at the last step of the reduction, multiplies the block by the scale constant.
-/
import proofs.«418911_j75642964017924_3_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.KPay

open Cert.KernelIdeal Cert.KernelIdeal.Gen Idealize.ShloMosaic Idealize.ShloMosaic.ValueIdx

/-- Coordinates of an index read at two positions given equal are equal. -/
private theorem coord_congr {s : Shape} (j : s.Idx) (p q : Nat) (hp : p < s.rank) (hq : q < s.rank) (h : p = q) :
    (j ⟨p, hp⟩).val = (j ⟨q, hq⟩).val := by subst h; rfl

/-- The x-tile's index on its row axis is the output entry's row. -/
theorem lhs_row (j : S1024x2048.Idx) (k : dot_S1024x1024_S2048x1024_S1024x2048_1_1_0_0_n_n.contr.Idx) :
    (dot_S1024x1024_S2048x1024_S1024x2048_1_1_0_0_n_n.lhsIdx j k (0 : Fin 2)).val = (j (0 : Fin 2)).val := by
  unfold DotDims.lhsIdx
  rw [dif_neg (show ¬(0 : Fin S1024x1024.rank) ∈ dot_S1024x1024_S2048x1024_S1024x2048_1_1_0_0_n_n.lhsBatch by decide),
    dif_pos (show (0 : Fin S1024x1024.rank) ∈ dot_S1024x1024_S2048x1024_S1024x2048_1_1_0_0_n_n.lhsNonContracting by decide)]
  exact coord_congr j _ _ _ _ (by decide)

/-- The x-tile's index on its contracted axis is the place in the sum. -/
theorem lhs_col (j : S1024x2048.Idx) (k : dot_S1024x1024_S2048x1024_S1024x2048_1_1_0_0_n_n.contr.Idx) :
    (dot_S1024x1024_S2048x1024_S1024x2048_1_1_0_0_n_n.lhsIdx j k (1 : Fin 2)).val = (k ⟨0, by decide⟩).val :=
  DotDims.lhsIdx_val_of_single _ (cl := (1 : Fin 2)) rfl j k

/-- The W-tile's index on its row axis is the output entry's column. -/
theorem rhs_row (j : S1024x2048.Idx) (k : dot_S1024x1024_S2048x1024_S1024x2048_1_1_0_0_n_n.contr.Idx) :
    (dot_S1024x1024_S2048x1024_S1024x2048_1_1_0_0_n_n.rhsIdx j k (0 : Fin 2)).val = (j (1 : Fin 2)).val := by
  unfold DotDims.rhsIdx
  rw [dif_neg (show ¬(0 : Fin S2048x1024.rank) ∈ dot_S1024x1024_S2048x1024_S1024x2048_1_1_0_0_n_n.rhsBatch by decide),
    dif_pos (show (0 : Fin S2048x1024.rank) ∈ dot_S1024x1024_S2048x1024_S1024x2048_1_1_0_0_n_n.rhsNonContracting by decide)]
  exact coord_congr j _ _ _ _ (by decide)

/-- The W-tile's index on its contracted axis is the place in the sum. -/
theorem rhs_col (j : S1024x2048.Idx) (k : dot_S1024x1024_S2048x1024_S1024x2048_1_1_0_0_n_n.contr.Idx) :
    (dot_S1024x1024_S2048x1024_S1024x2048_1_1_0_0_n_n.rhsIdx j k (1 : Fin 2)).val = (k ⟨0, by decide⟩).val :=
  DotDims.rhsIdx_val_of_single _ (cr := (1 : Fin 2)) rfl j k

/-- The tile product at entry (p, q): the sum over the 1024 contracted places. -/
theorem tile_product (x0 : Vec Ideal S1024x1024 .bf16) (x1 : Vec Ideal S2048x1024 .bf16) (p : Fin 1024) (q : Fin 2048) :
    (∑ k : dot_S1024x1024_S2048x1024_S1024x2048_1_1_0_0_n_n.contr.Idx,
        x0 (dot_S1024x1024_S2048x1024_S1024x2048_1_1_0_0_n_n.lhsIdx (ix2 p q) k)
          * x1 (dot_S1024x1024_S2048x1024_S1024x2048_1_1_0_0_n_n.rhsIdx (ix2 p q) k))
      = ∑ kk : Fin 1024, x0 (ix2 p kk) * x1 (ix2 q kk) := by
  rw [← Equiv.sum_comp (contrEquiv1 dot_S1024x1024_S2048x1024_S1024x2048_1_1_0_0_n_n 1024 rfl rfl).symm]
  refine Finset.sum_congr rfl fun kk _ => ?_
  have hk := contrEquiv1_symm_val dot_S1024x1024_S2048x1024_S1024x2048_1_1_0_0_n_n 1024 rfl rfl kk
  congr 2
  · funext a; apply Fin.ext
    match a with
    | ⟨0, _⟩ => exact lhs_row _ _
    | ⟨1, _⟩ => exact (lhs_col _ _).trans hk
  · funext a; apply Fin.ext
    match a with
    | ⟨0, _⟩ => exact rhs_row _ _
    | ⟨1, _⟩ => exact (rhs_col _ _).trans hk

/-- The first store writes zeros. -/
theorem pay1_apply (y : S1024x2048.Idx) : k0_pay1 (F := Ideal) y = 0 := by
  unfold k0_pay1
  show Ideal.ofBits .f32 0x00000000#32 = 0
  exact Ideal.ofBits_zero_f32

/-- The second store: what the block held plus the tile product. -/
theorem pay2_apply (acc : Vec Ideal S1024x2048 .f32) (x0 : Vec Ideal S1024x1024 .bf16) (x1 : Vec Ideal S2048x1024 .bf16)
    (p : Fin 1024) (q : Fin 2048) :
    k0_pay2 acc x0 x1 (ix2 p q) = acc (ix2 p q) + ∑ kk : Fin 1024, x0 (ix2 p kk) * x1 (ix2 q kk) := by
  unfold k0_pay2
  simp only [shapeCast_self]
  exact congrArg (acc (ix2 p q) + ·)
    ((Ideal.matmul_constant_zero_apply (φ₁ := .bf16) (φ₂ := .bf16) dot_S1024x1024_S2048x1024_S1024x2048_1_1_0_0_n_n none x0 x1 (ix2 p q)).trans
      (tile_product x0 x1 p q))

/-- The third store: the block times the scale constant. -/
theorem pay3_apply (v : Vec Ideal S1024x2048 .f32) (y : S1024x2048.Idx) :
    k0_pay3 v y = v y * Ideal.ofBits .f32 0x3F666666#32 := by
  unfold k0_pay3
  simp only [shapeCast_self]
  rfl

end Cert.KernelIdeal.KPay

end
-- ==== Proof.Spec.lean ====
/-
  The arithmetic both programs share, with no program in sight.

  The kernel computes  (∑ₖ x[t,k] · W[n,k]) · c  with c the real number the single-precision word 0x3F666666 encodes,
  the sum taken in eight consecutive blocks of 1024 terms; the reference computes  (∑ₖ (x[t,k] / 32) · W[n,k]) · c'
  with c' the number the word 0x41E66666 encodes. The two words have the same significand and exponents five apart,
  so c' = 32 · c exactly, and on finite entries the factor 1/32 leaves the sum and cancels against the 32.
  The blocks are rejoined by the bijection (block, place in block) ↦ block · 1024 + place.
-/
import Idealize.ShloMosaic.Lib.ValueIdx
import Idealize.ShloMosaic.PureOps.Ideal.Laws

noncomputable section

open scoped BigOperators

namespace Cert.Spec

open Idealize.ShloMosaic Idealize.ShloMosaic.ValueIdx

/-- The real number the word 0x3F666666 denotes: significand 2²³ + 6710886 = 15099494, exponent 126 − 127 − 23 = −24. -/
def c09 : ℝ := 15099494 / 16777216

theorem ofBits_c09 : Ideal.ofBits .f32 0x3F666666#32 = ((c09 : ℝ) : EReal) := by
  simp [Ideal.ofBits, Ideal.ieee, -EReal.coe_mul, c09]; norm_num

/-- The word 0x41E66666 has the same significand and exponent 131 − 127 − 23 = −19: thirty-two times the former. -/
theorem ofBits_c288 : Ideal.ofBits .f32 0x41E66666#32 = ((32 * c09 : ℝ) : EReal) := by
  simp [Ideal.ofBits, Ideal.ieee, -EReal.coe_mul, c09]; norm_num

/-- The word 0x42000000 denotes 32. -/
theorem ofBits_32 : Ideal.ofBits .f32 0x42000000#32 = ((32 : ℝ) : EReal) := by
  simp [Ideal.ofBits, Ideal.ieee, -EReal.coe_mul]; norm_num

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals the factor 1/32 inside the sum cancels against the factor 32 outside. -/
theorem scale_real {ι : Type*} (s : Finset ι) (X W : ι → ℝ) (c : ℝ) :
    (∑ k ∈ s, X k * (1 / 32) * W k) * (32 * c) = (∑ k ∈ s, X k * W k) * c := by
  rw [Finset.sum_mul, Finset.sum_mul]
  exact Finset.sum_congr rfl fun k _ => by ring

/-- The same on extended reals all of whose terms are finite. -/
theorem scale_finite {ι : Type*} [Fintype ι] (x w : ι → EReal) (hx : ∀ k, ∃ r : ℝ, x k = r) (hw : ∀ k, ∃ r : ℝ, w k = r)
    (c : ℝ) :
    (∑ k, x k * ((1 / 32 : ℝ) : EReal) * w k) * ((32 * c : ℝ) : EReal) = (∑ k, x k * w k) * (c : EReal) := by
  choose X hX using hx
  choose W hW using hw
  simp only [hX, hW, ← EReal.coe_mul, ← coe_sum]
  exact congrArg _ (scale_real _ X W c)

/-- A sum over 8192 consecutive places is the sum over eight blocks of the sums over the 1024 places of each. -/
theorem sum_blocks {β : Type*} [AddCommMonoid β] (f : Fin 8192 → β) :
    ∑ kb : Fin 8, ∑ kk : Fin 1024, f ⟨kb.val * 1024 + kk.val, by omega⟩ = ∑ k : Fin 8192, f k := by
  have e := Equiv.sum_comp (finProdFinEquiv (m := 8) (n := 1024)) (fun k : Fin (8 * 1024) => f k)
  rw [Fintype.sum_prod_type] at e
  rw [← e]
  refine Finset.sum_congr rfl fun kb _ => Finset.sum_congr rfl fun kk _ => congrArg f (Fin.ext ?_)
  show kb.val * 1024 + kk.val = kk.val + 1024 * kb.val
  omega

end Cert.Spec

end
-- ==== Proof.KernelValue.lean ====
/-
  What the kernel leaves in its result array, entry by entry, as a function of the two matrices the region is entered
  with: x (4096 × 8192) and the decoded weights W (8192 × 8192).

  The grid is 4 × 4 × 8: point t = 32·i + 8·j + k works on rows 1024·i … of x, rows 2048·j … of W and columns
  1024·k … of both. For a fixed (i, j) the eight points k = 0 … 7 form one run on one output block: the first zeroes
  it and adds its tile product, the next six add theirs, the last adds its own and multiplies by the scale constant.
  So entry (a, b) of the result is the sum over the eight k of the tile products' entries, times the constant, and the
  eight sums of 1024 terms are the one sum over all 8192 columns.
-/
import proofs.«418911_j75642964017924_3_alg».proof.Proof.Gen.KernelIdeal.Value
import proofs.«418911_j75642964017924_3_alg».proof.Proof.KernelPay
import proofs.«418911_j75642964017924_3_alg».proof.Proof.Spec

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The x matrix and the decoded weights as the region finds them, and the tiles point `t` is handed. -/
abbrev xarr (c : Dev nD) : Vec Ideal S4096x8192 .bf16 := V m c main_v1
abbrev warr (c : Dev nD) : Vec Ideal S8192x8192 .bf16 := V m c main_v3
abbrev xblk (c : Dev nD) (t : Fin cfg0.N) : Vec Ideal S1024x1024 .bf16 := iblk m c 0 t
abbrev wblk (c : Dev nD) (t : Fin cfg0.N) : Vec Ideal S2048x1024 .bf16 := iblk m c 1 t

/-- Point t's x-tile is block (t / 32, t % 8) of x. -/
theorem idx_x : ∀ t : Fin cfg0.N, win0_0.index t (0 : Fin 2) = t.val / 32 ∧ win0_0.index t (1 : Fin 2) = t.val % 8 :=
  (by decide +kernel : ∀ t : Fin grid0.N, _)

/-- Point t's W-tile is block (t / 8 % 4, t % 8) of W. -/
theorem idx_w : ∀ t : Fin cfg0.N, win0_1.index t (0 : Fin 2) = t.val / 8 % 4 ∧ win0_1.index t (1 : Fin 2) = t.val % 8 :=
  (by decide +kernel : ∀ t : Fin grid0.N, _)

/-- An entry of point t's x-tile is the entry of x at the tile's offset. -/
theorem xblk_apply (c : Dev nD) (t : Fin cfg0.N) (p kk : Fin 1024) (r : Fin 4096) (k : Fin 8192)
    (hr : r.val = t.val / 32 * 1024 + p.val) (hk : k.val = t.val % 8 * 1024 + kk.val) :
    xblk m c t (ix2 p kk) = xarr m c (ix2 r k) := by
  obtain ⟨h0, h1⟩ := idx_x t
  show V m c main_v1 (((cfg0.win 0).blk t).view.emb (ix2 p kk)) = V m c main_v1 (ix2 r k)
  refine congrArg (V m c main_v1) (funext fun a => Fin.ext ?_)
  match a with
  | ⟨0, _⟩ => show win0_0.index t (0 : Fin 2) * 1024 + 1 * p.val = r.val; rw [h0, hr]; omega
  | ⟨1, _⟩ => show win0_0.index t (1 : Fin 2) * 1024 + 1 * kk.val = k.val; rw [h1, hk]; omega

/-- An entry of point t's W-tile is the entry of W at the tile's offset. -/
theorem wblk_apply (c : Dev nD) (t : Fin cfg0.N) (q : Fin 2048) (kk : Fin 1024) (r k : Fin 8192)
    (hr : r.val = t.val / 8 % 4 * 2048 + q.val) (hk : k.val = t.val % 8 * 1024 + kk.val) :
    wblk m c t (ix2 q kk) = warr m c (ix2 r k) := by
  obtain ⟨h0, h1⟩ := idx_w t
  show V m c main_v3 (((cfg0.win 1).blk t).view.emb (ix2 q kk)) = V m c main_v3 (ix2 r k)
  refine congrArg (V m c main_v3) (funext fun a => Fin.ext ?_)
  match a with
  | ⟨0, _⟩ => show win0_1.index t (0 : Fin 2) * 2048 + 1 * q.val = r.val; rw [h0, hr]; omega
  | ⟨1, _⟩ => show win0_1.index t (1 : Fin 2) * 1024 + 1 * kk.val = k.val; rw [h1, hk]; omega

/-- What point n adds to entry (p, q) of its output block: its tile product there (zero past the grid). -/
def addendAt (c : Dev nD) (n : ℕ) (p : Fin 1024) (q : Fin 2048) : EReal :=
  if h : n < cfg0.N then ∑ kk : Fin 1024, xblk m c ⟨n, h⟩ (ix2 p kk) * wblk m c ⟨n, h⟩ (ix2 q kk) else 0

/-- The same as a function of the block's index. -/
def addend (c : Dev nD) (n : ℕ) : S1024x2048.Idx → EReal := fun y =>
  addendAt m c n ⟨(y 0).val, idx2_lt0 y⟩ ⟨(y 1).val, idx2_lt1 y⟩

/-- The run's first point leaves its tile product over zeros. -/
theorem reset_apply (c : Dev nD) (n : ℕ) (h : n < cfg0.N) (y : S1024x2048.Idx) :
    Value.reset2 m c n h y = 0 + addend m c n y := by
  obtain ⟨p, q, rfl⟩ : ∃ (p : Fin 1024) (q : Fin 2048), y = ix2 p q := ⟨y 0, y 1, eq_ix2 y⟩
  unfold Value.reset2
  rw [KPay.pay2_apply, KPay.pay1_apply]
  show _ = 0 + addendAt m c n p q
  unfold addendAt
  rw [dif_pos h]

/-- A point strictly inside a run adds its tile product to what the point before left. -/
theorem step_mid_apply (c : Dev nD) (n : ℕ) (h : n < cfg0.N) (acc : Vec Ideal S1024x2048 .f32) (y : S1024x2048.Idx)
    (h0 : ¬n % 8 = 0) (h7 : ¬n % 8 = 7) : Value.step2 m c n h acc y = acc y + addend m c n y := by
  obtain ⟨p, q, rfl⟩ : ∃ (p : Fin 1024) (q : Fin 2048), y = ix2 p q := ⟨y 0, y 1, eq_ix2 y⟩
  unfold Value.step2
  rw [if_pos ⟨h0, h7⟩, KPay.pay2_apply]
  show _ = acc (ix2 p q) + addendAt m c n p q
  unfold addendAt
  rw [dif_pos h]

/-- A run's last point adds its tile product and multiplies by the scale constant. -/
theorem step_last_apply (c : Dev nD) (n : ℕ) (h : n < cfg0.N) (acc : Vec Ideal S1024x2048 .f32) (y : S1024x2048.Idx)
    (h7 : n % 8 = 7) :
    Value.step2 m c n h acc y = (acc y + addend m c n y) * Ideal.ofBits .f32 0x3F666666#32 := by
  obtain ⟨p, q, rfl⟩ : ∃ (p : Fin 1024) (q : Fin 2048), y = ix2 p q := ⟨y 0, y 1, eq_ix2 y⟩
  unfold Value.step2
  rw [if_neg (by omega), if_pos ⟨by omega, h7⟩, KPay.pay3_apply, KPay.pay2_apply]
  show _ = (acc (ix2 p q) + addendAt m c n p q) * _
  unfold addendAt
  rw [dif_pos h]

/-- The whole run r on its block: the eight points' tile products summed, times the scale constant. -/
theorem fold_apply (c : Dev nD) (r : ℕ) (h : 8 * r + 7 < cfg0.N) (y : S1024x2048.Idx) :
    Pipeline.accAt (Value.reset2 m c) (Value.step2 m c) (8 * r) 7 h y
      = (∑ s ∈ Finset.range 8, addend m c (8 * r + s) y) * Ideal.ofBits .f32 0x3F666666#32 := by
  rw [Pipeline.accAt_succ, step_last_apply m c _ _ _ y (by omega),
    Pipeline.accAt_add_apply (Value.reset2 m c) (Value.step2 m c) (fun _ => (0 : EReal)) (addend m c) (8 * r) 6
      (fun h y => reset_apply m c _ h y)
      (fun n h acc y h1 h2 => step_mid_apply m c n h acc y (by omega) (by omega)) 6 le_rfl _ y,
    zero_add, ← Finset.sum_range_succ _ 7]

/-- A point whose tiles hold row a of x and row b of W, at column offset 1024·s, adds the products over those columns. -/
theorem addendAt_entry (c : Dev nD) (n : ℕ) (hn : n < cfg0.N) (a : Fin 4096) (b : Fin 8192) (s : Fin 8) (p : Fin 1024)
    (q : Fin 2048) (hp : a.val = n / 32 * 1024 + p.val) (hq : b.val = n / 8 % 4 * 2048 + q.val) (hs : n % 8 = s.val) :
    addendAt m c n p q
      = ∑ kk : Fin 1024, xarr m c (ix2 a ⟨s.val * 1024 + kk.val, by omega⟩) * warr m c (ix2 b ⟨s.val * 1024 + kk.val, by omega⟩) := by
  unfold addendAt
  rw [dif_pos hn]
  refine Finset.sum_congr rfl fun kk _ => ?_
  rw [xblk_apply m c ⟨n, hn⟩ p kk a ⟨s.val * 1024 + kk.val, by omega⟩ hp (by show s.val * 1024 + kk.val = n % 8 * 1024 + kk.val; rw [hs]),
    wblk_apply m c ⟨n, hn⟩ q kk b ⟨s.val * 1024 + kk.val, by omega⟩ hq (by show s.val * 1024 + kk.val = n % 8 * 1024 + kk.val; rw [hs])]

/-- Point 8·r + s of the run that holds entry (a, b) adds the products over columns 1024·s … of row a of x and row b
    of W. -/
theorem addend_entry (c : Dev nD) (a : Fin 4096) (b : Fin 8192) (s : Fin 8) :
    addend m c (8 * Value.run2Of (ix2 a b : S4096x8192.Idx) + s.val) (Value.loc2Of (ix2 a b : S4096x8192.Idx))
      = ∑ kk : Fin 1024, xarr m c (ix2 a ⟨s.val * 1024 + kk.val, by omega⟩) * warr m c (ix2 b ⟨s.val * 1024 + kk.val, by omega⟩) := by
  have ha := a.isLt
  have hb := b.isLt
  have hs := s.isLt
  have hrun : Value.run2Of (ix2 a b : S4096x8192.Idx) = 4 * (a.val / 1024) + b.val / 2048 := by
    show 4 * (a.val / 1024 - 0) + 1 * (b.val / 2048 - 0) = _
    omega
  have hn : 8 * Value.run2Of (ix2 a b : S4096x8192.Idx) + s.val < cfg0.N := by
    rw [hrun, show cfg0.N = 128 from N_0]; omega
  show addendAt m c _ ⟨a.val % 1024, _⟩ ⟨b.val % 2048, _⟩ = _
  refine addendAt_entry m c _ hn a b s _ _ ?_ ?_ ?_
  · show a.val = (8 * Value.run2Of (ix2 a b : S4096x8192.Idx) + s.val) / 32 * 1024 + a.val % 1024
    rw [hrun]; omega
  · show b.val = (8 * Value.run2Of (ix2 a b : S4096x8192.Idx) + s.val) / 8 % 4 * 2048 + b.val % 2048
    rw [hrun]; omega
  · rw [hrun]; omega

/-- THE RESULT ARRAY, entry (a, b): the inner product of row a of x with row b of W, times the scale constant. -/
theorem G2_apply (c : Dev nD) (a : Fin 4096) (b : Fin 8192) :
    Value.G2 m c (ix2 a b)
      = (∑ k : Fin 8192, xarr m c (ix2 a k) * warr m c (ix2 b k)) * Ideal.ofBits .f32 0x3F666666#32 := by
  have ha := a.isLt
  have hb := b.isLt
  have hrun : Value.run2Of (ix2 a b : S4096x8192.Idx) = 4 * (a.val / 1024) + b.val / 2048 := by
    show 4 * (a.val / 1024 - 0) + 1 * (b.val / 2048 - 0) = _
    omega
  unfold Value.G2
  rw [dif_pos (by rw [hrun, show cfg0.N = 128 from N_0]; omega), fold_apply, Finset.sum_range]
  congr 1
  rw [← Spec.sum_blocks (fun k : Fin 8192 => xarr m c (ix2 a k) * warr m c (ix2 b k))]
  exact Finset.sum_congr rfl fun s _ => addend_entry m c a b s

end Cert.KernelIdeal.KValue

end
-- ==== Proof.KernelHost.lean ====
/-
  The two matrices the kernel's region is entered with, as functions of the program's arguments.

  Before the region the host narrows x and the table to sixteen-bit floats — the identity on extended reals —, gathers
  the table's rows at the indices (with a unit axis appended to the index array) and lays the gathered rows out as an
  8192 × 8192 matrix. So the region finds x itself, and the gathered weights.
-/
import proofs.«418911_j75642964017924_3_alg».proof.Proof.Gen.KernelIdeal.Frame
import Idealize.ShloMosaic.Lib.StableHlo.Run
import Idealize.ShloMosaic.PureOps.Ideal

noncomputable section

namespace Cert.KernelIdeal.KHost

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The table's rows gathered at the indices, as an 8192 × 8192 matrix. -/
def weights (ix : IVec S8192x1024 32) (g : FVec Ideal S65536x8 .f32) : FVec Ideal S8192x8192 .f32 :=
  shapeCast S8192x8192
    (Host.gather gather_S65536x8_S8192x1024x1_S8192x1024x8_2_0_n_n_0_2_18 g
      (broadcastInDim S8192x1024x1 ![0, 1] bcast_S8192x1024_S8192x1024x1_0_1 ix))
    shapeCasts_S8192x1024x8_S8192x8192

/-- The region finds x as launched. -/
theorem x_entry (c : Dev nD) :
    (V m c main_v1 : Vec Ideal S4096x8192 .bf16) = m ((c : Thread nD τ).loc main_arg0) := by
  dsimp only [V]
  simp only [hostOps0, hostOps0_1, hostOps0_2, List.flatten_cons, List.flatten_nil, List.append_nil, List.cons_append,
    List.nil_append]
  after_results
  rfl

attribute [local irreducible] Host.gather in
/-- The region finds the gathered weights. -/
theorem w_entry (c : Dev nD) :
    (V m c main_v3 : Vec Ideal S8192x8192 .bf16)
      = weights (m ((c : Thread nD τ).loc main_arg1)) (m ((c : Thread nD τ).loc main_arg2)) := by
  dsimp only [V]
  simp only [hostOps0, hostOps0_1, hostOps0_2, List.flatten_cons, List.flatten_nil, List.append_nil, List.cons_append,
    List.nil_append]
  after_results
  rfl

end Cert.KernelIdeal.KHost

end
-- ==== Proof.LibSsa.lean ====
/-
  Straight-line host programs read in single-assignment form.

  A host program is a list of operations, each of which overwrites one buffer with a function of the contents of
  other buffers; `after ops V` is the fold of those overwrites over starting contents `V`. When every buffer is
  written at most once, and only after the last time an earlier operation has read or written it, the final contents
  satisfy one EQUATION per operation: the buffer an operation writes ends at the operation's function of the FINAL
  contents of the buffers it reads. The lemmas below prove that equation for each kind of operation from two facts
  about the list that are decided by inspection of the buffers' names: the buffer written at position `k` is not
  written again later, and the buffers read at position `k` are not written at position `k` or later.
-/
import Idealize.ShloMosaic.Lib.StableHlo.Run

noncomputable section

namespace Idealize.ShloMosaic.StableHlo.Ssa

open Idealize.ShloMosaic Idealize.ShloMosaic.StableHlo

variable {τ : Topo} {sig : RefSig} {Val : EltTy → Type}

/-- Running two lines one after the other folds the second over what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- `W` names, operation by operation, the one buffer each operation of the line writes. -/
def WritesOnly : List (HloOp τ sig Val) → List (Ref sig .tc) → Prop
  | [], [] => True
  | op :: ops, w :: W => op.writes = {Proc.devRef .tc w} ∧ WritesOnly ops W
  | [], _ :: _ => False
  | _ :: _, [] => False

theorem WritesOnly.drop : ∀ (k : Nat) (ops : List (HloOp τ sig Val)) (W : List (Ref sig .tc)),
    WritesOnly ops W → WritesOnly (ops.drop k) (W.drop k)
  | 0, _, _, h => h
  | _ + 1, [], [], _ => trivial
  | k + 1, _ :: ops, _ :: W, h => WritesOnly.drop k ops W h.2
  | _ + 1, [], _ :: _, h => h.elim
  | _ + 1, _ :: _, [], h => h.elim

/-- A buffer whose name is not among the written ones keeps its contents through the line. -/
theorem after_of_not_written : ∀ (ops : List (HloOp τ sig Val)) (W : List (Ref sig .tc)) (V : Valuation τ sig Val)
    (r : Ref sig .tc), WritesOnly ops W → r ∉ W → after ops V (Proc.devRef .tc r) = V (Proc.devRef .tc r)
  | [], [], _, _, _, _ => rfl
  | op :: ops, w :: W, V, r, h, hr => by
    have hrw : r ≠ w := fun e => hr (e ▸ List.mem_cons_self)
    have hrW : r ∉ W := fun e => hr (List.mem_cons_of_mem _ e)
    rw [after_cons, after_of_not_written ops W _ r h.2 hrW, op.result_of_not_mem V]
    rw [h.1, Finset.mem_singleton]
    exact devRef_ne_of_ne hrw
  | [], _ :: _, _, _, h, _ => h.elim
  | _ :: _, [], _, _, h, _ => h.elim

variable (ops : List (HloOp τ sig Val)) (W : List (Ref sig .tc)) (hW : WritesOnly ops W) (V : Valuation τ sig Val)
include hW

/-- The buffer written at position `k` and never again ends at that operation's result over the contents the
    first `k` operations leave. -/
theorem after_at (k : Nat) (op : HloOp τ sig Val) (y : Ref sig .tc)
    (hop : ops.drop k = op :: ops.drop (k + 1)) (hy : y ∉ W.drop (k + 1)) :
    after ops V (Proc.devRef .tc y) = op.result (after (ops.take k) V) (Proc.devRef .tc y) := by
  conv_lhs => rw [← List.take_append_drop k ops, after_append, hop, after_cons]
  exact after_of_not_written _ _ _ y (hW.drop (k + 1)) hy

/-- A buffer not written at position `k` or later already has its final contents after the first `k` operations. -/
theorem after_take (k : Nat) (x : Ref sig .tc) (hx : x ∉ W.drop k) :
    after (ops.take k) V (Proc.devRef .tc x) = after ops V (Proc.devRef .tc x) := by
  conv_rhs => rw [← List.take_append_drop k ops, after_append]
  exact (after_of_not_written _ _ _ x (hW.drop k) hx).symm

/-- A buffer no operation writes keeps its starting contents. -/
theorem after_arg (x : Ref sig .tc) (hx : x ∉ W) : after ops V (Proc.devRef .tc x) = V (Proc.devRef .tc x) :=
  after_of_not_written ops W V x hW hx

theorem ssa_nullary (k : Nat) (y : Ref sig .tc) (v : y.ty.Contents Val) (hy)
    (hop : ops.drop k = nullary y v hy :: ops.drop (k + 1)) (hy' : y ∉ W.drop (k + 1)) :
    after ops V (Proc.devRef .tc y) = v := by
  rw [after_at ops W hW V k _ y hop hy']; exact nullary_result y v hy _

theorem ssa_unary (k : Nat) (x y : Ref sig .tc) (f : x.ty.Contents Val → y.ty.Contents Val) (hx hy)
    (hop : ops.drop k = unary x y f hx hy :: ops.drop (k + 1)) (hy' : y ∉ W.drop (k + 1)) (hx' : x ∉ W.drop k) :
    after ops V (Proc.devRef .tc y) = f (after ops V (Proc.devRef .tc x)) := by
  rw [after_at ops W hW V k _ y hop hy', ← after_take ops W hW V k x hx']; exact unary_result x y f hx hy _

theorem ssa_binary (k : Nat) (a b y : Ref sig .tc) (f : a.ty.Contents Val → b.ty.Contents Val → y.ty.Contents Val) (ha hb hy)
    (hop : ops.drop k = binary a b y f ha hb hy :: ops.drop (k + 1)) (hy' : y ∉ W.drop (k + 1))
    (ha' : a ∉ W.drop k) (hb' : b ∉ W.drop k) :
    after ops V (Proc.devRef .tc y) = f (after ops V (Proc.devRef .tc a)) (after ops V (Proc.devRef .tc b)) := by
  rw [after_at ops W hW V k _ y hop hy', ← after_take ops W hW V k a ha', ← after_take ops W hW V k b hb']
  exact binary_result a b y f ha hb hy _

theorem ssa_ternary (k : Nat) (c a b y : Ref sig .tc)
    (f : c.ty.Contents Val → a.ty.Contents Val → b.ty.Contents Val → y.ty.Contents Val) (hc ha hb hy)
    (hop : ops.drop k = ternary c a b y f hc ha hb hy :: ops.drop (k + 1)) (hy' : y ∉ W.drop (k + 1))
    (hc' : c ∉ W.drop k) (ha' : a ∉ W.drop k) (hb' : b ∉ W.drop k) :
    after ops V (Proc.devRef .tc y)
      = f (after ops V (Proc.devRef .tc c)) (after ops V (Proc.devRef .tc a)) (after ops V (Proc.devRef .tc b)) := by
  rw [after_at ops W hW V k _ y hop hy', ← after_take ops W hW V k c hc', ← after_take ops W hW V k a ha',
    ← after_take ops W hW V k b hb']
  exact ternary_result c a b y f hc ha hb hy _

theorem ssa_reshape (k : Nat) (x y : Ref sig .tc) (he : x.ty.elt = y.ty.elt) (hn : x.ty.shape.ShapeCasts y.ty.shape) (hx hy)
    (hop : ops.drop k = reshape (Val := Val) x y he hn hx hy :: ops.drop (k + 1)) (hy' : y ∉ W.drop (k + 1))
    (hx' : x ∉ W.drop k) :
    after ops V (Proc.devRef .tc y) = fun i => he ▸ shapeCast y.ty.shape (after ops V (Proc.devRef .tc x)) hn i := by
  rw [after_at ops W hW V k _ y hop hy', ← after_take ops W hW V k x hx']; exact reshape_result x y he hn hx hy _

theorem ssa_nary (k : Nat) {n : Nat} (xs : Fin n → Ref sig .tc) (y : Ref sig .tc)
    (f : ((j : Fin n) → (xs j).ty.Contents Val) → y.ty.Contents Val) (hxs hy)
    (hop : ops.drop k = nary xs y f hxs hy :: ops.drop (k + 1)) (hy' : y ∉ W.drop (k + 1))
    (hxs' : ∀ j, xs j ∉ W.drop k) :
    after ops V (Proc.devRef .tc y) = f (fun j => after ops V (Proc.devRef .tc (xs j))) := by
  rw [after_at ops W hW V k _ y hop hy', nary_result]
  exact congrArg f (funext fun j => after_take ops W hW V k (xs j) (hxs' j))

end Idealize.ShloMosaic.StableHlo.Ssa

end
-- ==== Proof.RefRun.lean ====
/-
  The reference program as a straight line of thirty-two host operations, and what it leaves in its result.

  The index array is first normalised the way `jnp.take` does it (a negative index has the table's length added),
  a mask records which normalised indices lie in [0, 65535], the table's rows are gathered at the normalised indices,
  and rows under a cleared mask bit are replaced by a not-a-number constant. The gathered rows, laid out as an
  8192 × 8192 matrix and transposed, are contracted with x / 32, and the product is scaled by the second constant.
  `refTerm` is that composition as one pure function of the three arguments.
-/
import proofs.«418911_j75642964017924_3_alg».proof.Proof.Gen.ReferenceIdeal
import Idealize.ShloMosaic.Lib.StableHlo.Run
import proofs.«418911_j75642964017924_3_alg».proof.Proof.LibSsa

noncomputable section

namespace Cert.ReferenceIdeal.RefRun

open Cert.ReferenceIdeal Cert.ReferenceIdeal.Gen Idealize.ShloMosaic Idealize.ShloMosaic.TcCoe Idealize.SL.Sem
open Idealize.ShloMosaic.StableHlo

variable {F : FTy → Type} [FloatOps F]

/-- The index array as `jnp.take` normalises it: a negative index has 65536 added. -/
def normIdx (ix : IVec S8192x1024 32) : IVec S8192x1024 32 :=
  select (cmpi .slt ix (broadcastInDim S8192x1024 ![] bcast_S_S8192x1024 (constantI S_ 32 0#32)))
    (addi ix (broadcastInDim S8192x1024 ![] bcast_S_S8192x1024 (constantI S_ 32 65536#32))) ix

/-- The start indices of the gather: the normalised indices with a unit axis appended. -/
def startIdx (ix : IVec S8192x1024 32) : IVec S8192x1024x1 32 :=
  broadcastInDim S8192x1024x1 ![0, 1] bcast_S8192x1024_S8192x1024x1_0_1 (normIdx ix)

/-- Which normalised indices lie in the table: 0 ≤ i ∧ i ≤ 65535, folded over the unit axis. -/
def inRange (ix : IVec S8192x1024 32) : IVec S8192x1024 1 :=
  Host.reduce IntOp.andi
    (andi (cmpi .sge (startIdx ix) (broadcastInDim S8192x1024x1 ![] bcast_S_S8192x1024x1 (constantI S_ 32 0#32)))
      (cmpi .sle (startIdx ix) (broadcastInDim S8192x1024x1 ![0, 1, 2] bcast_S1x1x1_S8192x1024x1_0_1_2
        (broadcastInDim S1x1x1 ![2] bcast_S1_S1x1x1_2 (constantI S1 32 65535#32)))))
    (constantI S_ 1 1#1) reducesTo_S8192x1024x1_S8192x1024_d2 h_S_

/-- The decoded weights, one table row per index, not-a-number where the index is outside the table. -/
def decoded (ix : IVec S8192x1024 32) (g : FVec F S65536x8 .f32) : FVec F S8192x1024x8 .f32 :=
  select (broadcastInDim S8192x1024x8 ![0, 1] bcast_S8192x1024_S8192x1024x8_0_1 (inRange ix))
    (Host.gather gather_S65536x8_S8192x1024x1_S8192x1024x8_2_0_n_n_0_2_18 g (startIdx ix))
    (broadcastInDim S8192x1024x8 ![] bcast_S_S8192x1024x8 (constant S_ .f32 0x7FC00000#32))

/-- The reference's result as one function of its arguments. -/
def refTerm (x : FVec F S4096x8192 .f32) (ix : IVec S8192x1024 32) (g : FVec F S65536x8 .f32) : FVec F S4096x8192 .f32 :=
  mulf
    (Host.dotGeneral dot_S4096x8192_S8192x8192_S4096x8192_1_0_0_1_n_n none
      (Host.divf x (broadcastInDim S4096x8192 ![] bcast_S_S4096x8192 (constant S_ .f32 0x42000000#32)))
      (transpose S8192x8192 [1, 0] (shapeCast S8192x8192 (decoded ix g) shapeCasts_S8192x1024x8_S8192x8192)
        transposes_S8192x8192_S8192x8192_1_0))
    (broadcastInDim S4096x8192 ![] bcast_S_S4096x8192 (constant S_ .f32 0x41E66666#32))

/-- The program's operations in order, the two outlined functions unfolded at their calls. -/
abbrev ops : List (HloOp τ sig (Elt F)) :=
  [ TRef.nullary main_call0.c (constantI S_ 32 0#32),
    TRef.unary main_call0.c main_call0.v0 (broadcastInDim S8192x1024 ![] bcast_S_S8192x1024),
    TRef.binary (.of main_arg1) main_call0.v0 main_call0.v1 (cmpi .slt),
    TRef.nullary main_call0.c_0 (constantI S_ 32 65536#32),
    TRef.unary main_call0.c_0 main_call0.v2 (broadcastInDim S8192x1024 ![] bcast_S_S8192x1024),
    TRef.binary (.of main_arg1) main_call0.v2 main_call0.v3 addi,
    TRef.ternary main_call0.v1 main_call0.v3 (.of main_arg1) main_call0.call0.v0 select,
    TRef.unary main_call0.call0.v0 main_call0.v5 (broadcastInDim S8192x1024x1 ![0, 1] bcast_S8192x1024_S8192x1024x1_0_1),
    TRef.nullary main_call0.c_1 (constantI S1 32 65535#32),
    TRef.nullary main_call0.c_2 (constantI S_ 32 0#32),
    TRef.unary main_call0.c_2 main_call0.v6 (broadcastInDim S8192x1024x1 ![] bcast_S_S8192x1024x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S8192x1024x1 ![0, 1, 2] bcast_S1x1x1_S8192x1024x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8192x1024x1_S8192x1024_d2 h_S_),
    TRef.binary (.of main_arg2) main_call0.v5 main_call0.v13 (fun x i => Host.gather gather_S65536x8_S8192x1024x1_S8192x1024x8_2_0_n_n_0_2_18 x i),
    TRef.unary main_call0.v12 main_call0.v14 (broadcastInDim S8192x1024x8 ![0, 1] bcast_S8192x1024_S8192x1024x8_0_1),
    TRef.nullary main_call0.cst (constant S_ .f32 0x7FC00000#32),
    TRef.unary main_call0.cst main_call0.v15 (broadcastInDim S8192x1024x8 ![] bcast_S_S8192x1024x8),
    TRef.ternary main_call0.v14 main_call0.v13 main_call0.v15 main_call0.v16 select,
    reshape main_v0 main_v1 rfl shapeCasts_S8192x1024x8_S8192x8192,
    nullary main_cst (constant S_ .f32 0x42000000#32),
    unary main_cst main_v2 (broadcastInDim S4096x8192 ![] bcast_S_S4096x8192 : (⟨S_, .f32⟩ : BufTy).Contents (Elt F) → (⟨S4096x8192, .f32⟩ : BufTy).Contents (Elt F)),
    binary main_arg0 main_v2 main_v3 (Host.divf : (⟨S4096x8192, .f32⟩ : BufTy).Contents (Elt F) → (⟨S4096x8192, .f32⟩ : BufTy).Contents (Elt F) → (⟨S4096x8192, .f32⟩ : BufTy).Contents (Elt F)),
    unary main_v1 main_v4 ((transpose S8192x8192 [1, 0] · transposes_S8192x8192_S8192x8192_1_0) : (⟨S8192x8192, .f32⟩ : BufTy).Contents (Elt F) → (⟨S8192x8192, .f32⟩ : BufTy).Contents (Elt F)),
    binary main_v3 main_v4 main_v5 ((fun l r => Host.dotGeneral dot_S4096x8192_S8192x8192_S4096x8192_1_0_0_1_n_n none l r) : (⟨S4096x8192, .f32⟩ : BufTy).Contents (Elt F) → (⟨S8192x8192, .f32⟩ : BufTy).Contents (Elt F) → (⟨S4096x8192, .f32⟩ : BufTy).Contents (Elt F)),
    nullary main_cst_0 (constant S_ .f32 0x41E66666#32),
    unary main_cst_0 main_v6 (broadcastInDim S4096x8192 ![] bcast_S_S4096x8192 : (⟨S_, .f32⟩ : BufTy).Contents (Elt F) → (⟨S4096x8192, .f32⟩ : BufTy).Contents (Elt F)),
    binary main_v5 main_v6 main_v7 (mulf : (⟨S4096x8192, .f32⟩ : BufTy).Contents (Elt F) → (⟨S4096x8192, .f32⟩ : BufTy).Contents (Elt F) → (⟨S4096x8192, .f32⟩ : BufTy).Contents (Elt F)) ]

set_option maxRecDepth 2048 in
/-- The program is that straight line: the outlined functions unfolded and the sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., reshape_bufs_sub ..,
    nullary_bufs_sub .., unary_bufs_sub .., binary_bufs_sub .., unary_bufs_sub .., binary_bufs_sub .., nullary_bufs_sub ..,
    unary_bufs_sub .., binary_bufs_sub ..⟩

/-- The buffer each operation writes, in order: every buffer is written once. -/
abbrev written : List (Ref sig .tc) :=
  [main_call0_c, main_call0_v0, main_call0_v1, main_call0_c_0, main_call0_v2, main_call0_v3, main_call0_v4, main_call0_v5,
    main_call0_c_1, main_call0_c_2, main_call0_v6, main_call0_v7, main_call0_v8, main_call0_v9, main_call0_v10, main_call0_v11,
    main_call0_c_3, main_call0_v12, main_call0_v13, main_call0_v14, main_call0_cst, main_call0_v15, main_v0, main_v1,
    main_cst, main_v2, main_v3, main_v4, main_v5, main_cst_0, main_v6, main_v7]

theorem writesOnly : Ssa.WritesOnly (ops (F := F)) written := by
  simp only [Ssa.WritesOnly]
  refine ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, trivial⟩

/-! ## One equation per operation

Each buffer is written once, after its operands have their final contents, so at the end of the line it holds its
operation's function of its operands' final contents. -/

section Equations

variable (V : Valuation τ sig (Elt F))

theorem e_c : after ops V (Proc.devRef .tc main_call0_c) = constantI S_ 32 0#32 :=
  Ssa.ssa_nullary ops written writesOnly V 0 main_call0_c _ _ rfl (by decide)
theorem e_v0 : after ops V (Proc.devRef .tc main_call0_v0) = broadcastInDim S8192x1024 ![] bcast_S_S8192x1024 (after ops V (Proc.devRef .tc main_call0_c)) :=
  Ssa.ssa_unary ops written writesOnly V 1 main_call0_c main_call0_v0 _ _ _ rfl (by decide) (by decide)
theorem e_v1 : after ops V (Proc.devRef .tc main_call0_v1) = cmpi .slt (after ops V (Proc.devRef .tc main_arg1)) (after ops V (Proc.devRef .tc main_call0_v0)) :=
  Ssa.ssa_binary ops written writesOnly V 2 main_arg1 main_call0_v0 main_call0_v1 _ _ _ _ rfl (by decide) (by decide) (by decide)
theorem e_c_0 : after ops V (Proc.devRef .tc main_call0_c_0) = constantI S_ 32 65536#32 :=
  Ssa.ssa_nullary ops written writesOnly V 3 main_call0_c_0 _ _ rfl (by decide)
theorem e_v2 : after ops V (Proc.devRef .tc main_call0_v2) = broadcastInDim S8192x1024 ![] bcast_S_S8192x1024 (after ops V (Proc.devRef .tc main_call0_c_0)) :=
  Ssa.ssa_unary ops written writesOnly V 4 main_call0_c_0 main_call0_v2 _ _ _ rfl (by decide) (by decide)
theorem e_v3 : after ops V (Proc.devRef .tc main_call0_v3) = addi (after ops V (Proc.devRef .tc main_arg1)) (after ops V (Proc.devRef .tc main_call0_v2)) :=
  Ssa.ssa_binary ops written writesOnly V 5 main_arg1 main_call0_v2 main_call0_v3 _ _ _ _ rfl (by decide) (by decide) (by decide)
theorem e_v4 : after ops V (Proc.devRef .tc main_call0_v4) = select (after ops V (Proc.devRef .tc main_call0_v1)) (after ops V (Proc.devRef .tc main_call0_v3)) (after ops V (Proc.devRef .tc main_arg1)) :=
  Ssa.ssa_ternary ops written writesOnly V 6 main_call0_v1 main_call0_v3 main_arg1 main_call0_v4 _ _ _ _ _ rfl (by decide) (by decide) (by decide) (by decide)
theorem e_v5 : after ops V (Proc.devRef .tc main_call0_v5) = broadcastInDim S8192x1024x1 ![0, 1] bcast_S8192x1024_S8192x1024x1_0_1 (after ops V (Proc.devRef .tc main_call0_v4)) :=
  Ssa.ssa_unary ops written writesOnly V 7 main_call0_v4 main_call0_v5 _ _ _ rfl (by decide) (by decide)
theorem e_c_1 : after ops V (Proc.devRef .tc main_call0_c_1) = constantI S1 32 65535#32 :=
  Ssa.ssa_nullary ops written writesOnly V 8 main_call0_c_1 _ _ rfl (by decide)
theorem e_c_2 : after ops V (Proc.devRef .tc main_call0_c_2) = constantI S_ 32 0#32 :=
  Ssa.ssa_nullary ops written writesOnly V 9 main_call0_c_2 _ _ rfl (by decide)
theorem e_v6 : after ops V (Proc.devRef .tc main_call0_v6) = broadcastInDim S8192x1024x1 ![] bcast_S_S8192x1024x1 (after ops V (Proc.devRef .tc main_call0_c_2)) :=
  Ssa.ssa_unary ops written writesOnly V 10 main_call0_c_2 main_call0_v6 _ _ _ rfl (by decide) (by decide)
theorem e_v7 : after ops V (Proc.devRef .tc main_call0_v7) = cmpi .sge (after ops V (Proc.devRef .tc main_call0_v5)) (after ops V (Proc.devRef .tc main_call0_v6)) :=
  Ssa.ssa_binary ops written writesOnly V 11 main_call0_v5 main_call0_v6 main_call0_v7 _ _ _ _ rfl (by decide) (by decide) (by decide)
theorem e_v8 : after ops V (Proc.devRef .tc main_call0_v8) = broadcastInDim S1x1x1 ![2] bcast_S1_S1x1x1_2 (after ops V (Proc.devRef .tc main_call0_c_1)) :=
  Ssa.ssa_unary ops written writesOnly V 12 main_call0_c_1 main_call0_v8 _ _ _ rfl (by decide) (by decide)
theorem e_v9 : after ops V (Proc.devRef .tc main_call0_v9) = broadcastInDim S8192x1024x1 ![0, 1, 2] bcast_S1x1x1_S8192x1024x1_0_1_2 (after ops V (Proc.devRef .tc main_call0_v8)) :=
  Ssa.ssa_unary ops written writesOnly V 13 main_call0_v8 main_call0_v9 _ _ _ rfl (by decide) (by decide)
theorem e_v10 : after ops V (Proc.devRef .tc main_call0_v10) = cmpi .sle (after ops V (Proc.devRef .tc main_call0_v5)) (after ops V (Proc.devRef .tc main_call0_v9)) :=
  Ssa.ssa_binary ops written writesOnly V 14 main_call0_v5 main_call0_v9 main_call0_v10 _ _ _ _ rfl (by decide) (by decide) (by decide)
theorem e_v11 : after ops V (Proc.devRef .tc main_call0_v11) = andi (after ops V (Proc.devRef .tc main_call0_v7)) (after ops V (Proc.devRef .tc main_call0_v10)) :=
  Ssa.ssa_binary ops written writesOnly V 15 main_call0_v7 main_call0_v10 main_call0_v11 _ _ _ _ rfl (by decide) (by decide) (by decide)
theorem e_c_3 : after ops V (Proc.devRef .tc main_call0_c_3) = constantI S_ 1 1#1 :=
  Ssa.ssa_nullary ops written writesOnly V 16 main_call0_c_3 _ _ rfl (by decide)
attribute [local irreducible] Host.reduce in
theorem e_v12 : after ops V (Proc.devRef .tc main_call0_v12)
    = Host.reduce IntOp.andi (after ops V (Proc.devRef .tc main_call0_v11)) (after ops V (Proc.devRef .tc main_call0_c_3)) reducesTo_S8192x1024x1_S8192x1024_d2 h_S_ :=
  Ssa.ssa_binary ops written writesOnly V 17 main_call0_v11 main_call0_c_3 main_call0_v12
    (fun x v => Host.reduce IntOp.andi x v reducesTo_S8192x1024x1_S8192x1024_d2 h_S_) _ _ _ rfl (by decide) (by decide) (by decide)
theorem e_v13 : after ops V (Proc.devRef .tc main_call0_v13)
    = Host.gather gather_S65536x8_S8192x1024x1_S8192x1024x8_2_0_n_n_0_2_18 (after ops V (Proc.devRef .tc main_arg2)) (after ops V (Proc.devRef .tc main_call0_v5)) :=
  Ssa.ssa_binary ops written writesOnly V 18 main_arg2 main_call0_v5 main_call0_v13 _ _ _ _ rfl (by decide) (by decide) (by decide)
theorem e_v14 : after ops V (Proc.devRef .tc main_call0_v14) = broadcastInDim S8192x1024x8 ![0, 1] bcast_S8192x1024_S8192x1024x8_0_1 (after ops V (Proc.devRef .tc main_call0_v12)) :=
  Ssa.ssa_unary ops written writesOnly V 19 main_call0_v12 main_call0_v14 _ _ _ rfl (by decide) (by decide)
theorem e_cst : after ops V (Proc.devRef .tc main_call0_cst) = constant S_ .f32 0x7FC00000#32 :=
  Ssa.ssa_nullary ops written writesOnly V 20 main_call0_cst _ _ rfl (by decide)
theorem e_v15 : after ops V (Proc.devRef .tc main_call0_v15) = broadcastInDim S8192x1024x8 ![] bcast_S_S8192x1024x8 (after ops V (Proc.devRef .tc main_call0_cst)) :=
  Ssa.ssa_unary ops written writesOnly V 21 main_call0_cst main_call0_v15 _ _ _ rfl (by decide) (by decide)
theorem e_v16 : after ops V (Proc.devRef .tc main_v0) = select (after ops V (Proc.devRef .tc main_call0_v14)) (after ops V (Proc.devRef .tc main_call0_v13)) (after ops V (Proc.devRef .tc main_call0_v15)) :=
  Ssa.ssa_ternary ops written writesOnly V 22 main_call0_v14 main_call0_v13 main_call0_v15 main_v0 _ _ _ _ _ rfl (by decide) (by decide) (by decide) (by decide)
theorem e_m1 : after ops V (Proc.devRef .tc main_v1) = shapeCast S8192x8192 (after ops V (Proc.devRef .tc main_v0)) shapeCasts_S8192x1024x8_S8192x8192 :=
  Ssa.ssa_reshape ops written writesOnly V 23 main_v0 main_v1 rfl shapeCasts_S8192x1024x8_S8192x8192 _ _ rfl (by decide) (by decide)
theorem e_mcst : after ops V (Proc.devRef .tc main_cst) = constant S_ .f32 0x42000000#32 :=
  Ssa.ssa_nullary ops written writesOnly V 24 main_cst _ _ rfl (by decide)
theorem e_m2 : after ops V (Proc.devRef .tc main_v2) = broadcastInDim S4096x8192 ![] bcast_S_S4096x8192 (after ops V (Proc.devRef .tc main_cst)) :=
  Ssa.ssa_unary ops written writesOnly V 25 main_cst main_v2 _ _ _ rfl (by decide) (by decide)
theorem e_m3 : after ops V (Proc.devRef .tc main_v3) = Host.divf (after ops V (Proc.devRef .tc main_arg0)) (after ops V (Proc.devRef .tc main_v2)) :=
  Ssa.ssa_binary ops written writesOnly V 26 main_arg0 main_v2 main_v3 _ _ _ _ rfl (by decide) (by decide) (by decide)
theorem e_m4 : after ops V (Proc.devRef .tc main_v4) = transpose S8192x8192 [1, 0] (after ops V (Proc.devRef .tc main_v1)) transposes_S8192x8192_S8192x8192_1_0 :=
  Ssa.ssa_unary ops written writesOnly V 27 main_v1 main_v4 _ _ _ rfl (by decide) (by decide)
theorem e_m5 : after ops V (Proc.devRef .tc main_v5)
    = Host.dotGeneral dot_S4096x8192_S8192x8192_S4096x8192_1_0_0_1_n_n none (after ops V (Proc.devRef .tc main_v3)) (after ops V (Proc.devRef .tc main_v4)) :=
  Ssa.ssa_binary ops written writesOnly V 28 main_v3 main_v4 main_v5 _ _ _ _ rfl (by decide) (by decide) (by decide)
theorem e_mcst0 : after ops V (Proc.devRef .tc main_cst_0) = constant S_ .f32 0x41E66666#32 :=
  Ssa.ssa_nullary ops written writesOnly V 29 main_cst_0 _ _ rfl (by decide)
theorem e_m6 : after ops V (Proc.devRef .tc main_v6) = broadcastInDim S4096x8192 ![] bcast_S_S4096x8192 (after ops V (Proc.devRef .tc main_cst_0)) :=
  Ssa.ssa_unary ops written writesOnly V 30 main_cst_0 main_v6 _ _ _ rfl (by decide) (by decide)
theorem e_m7 : after ops V (Proc.devRef .tc main_v7) = mulf (after ops V (Proc.devRef .tc main_v5)) (after ops V (Proc.devRef .tc main_v6)) :=
  Ssa.ssa_binary ops written writesOnly V 31 main_v5 main_v6 main_v7 _ _ _ _ rfl (by decide) (by decide) (by decide)

theorem arg0_eq : after ops V (Proc.devRef .tc main_arg0) = V (Proc.devRef .tc main_arg0) := Ssa.after_arg ops written writesOnly V main_arg0 (by decide)
theorem arg1_eq : after ops V (Proc.devRef .tc main_arg1) = V (Proc.devRef .tc main_arg1) := Ssa.after_arg ops written writesOnly V main_arg1 (by decide)
theorem arg2_eq : after ops V (Proc.devRef .tc main_arg2) = V (Proc.devRef .tc main_arg2) := Ssa.after_arg ops written writesOnly V main_arg2 (by decide)

/-- The normalised index array at the end of the line. -/
theorem normIdx_eq : after ops V (Proc.devRef .tc main_call0_v4) = normIdx (V (Proc.devRef .tc main_arg1)) := by
  rw [e_v4, e_v1, e_v3, e_v0, e_v2, e_c, e_c_0, arg1_eq]; rfl

/-- The gather's start indices at the end of the line. -/
theorem startIdx_eq : after ops V (Proc.devRef .tc main_call0_v5) = startIdx (V (Proc.devRef .tc main_arg1)) := by
  rw [e_v5, normIdx_eq]; rfl

/-- The range mask at the end of the line. -/
theorem inRange_eq : after ops V (Proc.devRef .tc main_call0_v12) = inRange (V (Proc.devRef .tc main_arg1)) := by
  rw [e_v12, e_v11, e_v7, e_v10, e_v6, e_v9, e_v8, e_c_1, e_c_2, e_c_3, startIdx_eq]; rfl

/-- The decoded weights at the end of the line. -/
theorem decoded_eq : after ops V (Proc.devRef .tc main_v0) = decoded (V (Proc.devRef .tc main_arg1)) (V (Proc.devRef .tc main_arg2)) := by
  rw [e_v16, e_v14, e_v13, e_v15, e_cst, inRange_eq, startIdx_eq, arg2_eq]; rfl

/-- The fold of the operations at the result buffer is `refTerm` of the arguments' starting contents. -/
theorem out_eq : after ops V (Proc.devRef .tc main_v7)
      = refTerm (V (Proc.devRef .tc main_arg0)) (V (Proc.devRef .tc main_arg1)) (V (Proc.devRef .tc main_arg2)) := by
  rw [e_m7, e_m5, e_m6, e_mcst0, e_m3, e_m2, e_mcst, e_m4, e_m1, decoded_eq, arg0_eq]; rfl

end Equations

/-- Every weakly fair execution of the reference terminates with the result at `refTerm` of the arguments and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7)
        = refTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v7).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.ReferenceIdeal.RefRun

end
-- ==== Proof.RefValue.lean ====
/-
  The reference's result, entry by entry, on inputs that satisfy the precondition.

  When every index is a signed word in [0, 65536), the normalisation leaves the indices as they are, the range mask is
  one everywhere, and the decoded weights are the gathered table rows with no not-a-number fill. The result at (a, b) is
  then (∑ₖ (x[a,k] / 32) · W[b,k]) · c' — the host contraction pairs row a of x / 32 with column b of the transposed
  weights, which is row b of the weights — and on finite entries this is (∑ₖ x[a,k] · W[b,k]) · c.
-/
import proofs.«418911_j75642964017924_3_alg».proof.Proof.RefRun
import proofs.«418911_j75642964017924_3_alg».proof.Proof.Spec
import Idealize.ShloMosaic.Lib.Pipeline.Value
import Idealize.ShloMosaic.Lib.StableHlo.Predicate

noncomputable section

open scoped BigOperators

namespace Cert.ReferenceIdeal.RefValue

open Cert.ReferenceIdeal Cert.ReferenceIdeal.Gen Cert.ReferenceIdeal.RefRun Idealize.ShloMosaic Idealize.ShloMosaic.ValueIdx

/-! ## Signed comparisons of a word known to be at least 0 and below 65536 -/

theorem toInt_of_sge {a : BitVec 32} (h : IntOp.cmpi .sge a 0#32 = 1#1) : 0 ≤ a.toInt := by
  have h' : (0#32 : BitVec 32).sle a = true := (StableHlo.Predicate.ofBool_eq_one_iff _).1 h
  have := BitVec.sle_iff_toInt_le.1 h'
  simpa using this

theorem toInt_of_slt {a : BitVec 32} (h : IntOp.cmpi .slt a 65536#32 = 1#1) : a.toInt < 65536 := by
  have h' : a.slt 65536#32 = true := (StableHlo.Predicate.ofBool_eq_one_iff _).1 h
  have := BitVec.slt_iff_toInt_lt.1 h'
  have e : (65536#32 : BitVec 32).toInt = 65536 := by decide
  omega

theorem slt_zero_eq {a : BitVec 32} (h : 0 ≤ a.toInt) : IntOp.cmpi .slt a 0#32 = 0#1 := by
  have : a.slt 0#32 = false := by
    rw [Bool.eq_false_iff]; intro hc
    have := BitVec.slt_iff_toInt_lt.1 hc
    have e : (0#32 : BitVec 32).toInt = 0 := by decide
    omega
  show BitVec.ofBool (a.slt 0#32) = 0#1
  rw [this]; rfl

theorem sge_zero_eq {a : BitVec 32} (h : 0 ≤ a.toInt) : IntOp.cmpi .sge a 0#32 = 1#1 := by
  have : (0#32 : BitVec 32).sle a = true := BitVec.sle_iff_toInt_le.2 (by
    have e : (0#32 : BitVec 32).toInt = 0 := by decide
    omega)
  show BitVec.ofBool ((0#32 : BitVec 32).sle a) = 1#1
  rw [this]; rfl

theorem sle_max_eq {a : BitVec 32} (h : a.toInt < 65536) : IntOp.cmpi .sle a 65535#32 = 1#1 := by
  have : a.sle 65535#32 = true := BitVec.sle_iff_toInt_le.2 (by
    have e : (65535#32 : BitVec 32).toInt = 65535 := by decide
    omega)
  show BitVec.ofBool (a.sle 65535#32) = 1#1
  rw [this]; rfl

/-- A left fold by "and" from one over ones is one. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-! ## The index chain on indices in range -/

section InRange

variable {ix : IVec S8192x1024 32} (hge : ∀ j, IntOp.cmpi .sge (ix j) 0#32 = 1#1)
  (hlt : ∀ j, IntOp.cmpi .slt (ix j) 65536#32 = 1#1)

include hge in
/-- No index is negative, so the normalisation changes nothing. -/
theorem normIdx_eq : normIdx ix = ix := by
  funext j
  unfold normIdx
  show Scalar.select (IntOp.cmpi .slt (ix j) 0#32) _ (ix j) = ix j
  rw [slt_zero_eq (toInt_of_sge (hge j)), select_zero]

include hge hlt in
/-- Every index is in the table, so the mask is one everywhere. -/
theorem inRange_eq : inRange ix = fun _ => 1#1 := by
  funext j
  unfold inRange startIdx
  rw [normIdx_eq hge, Host.reduce_eq_foldl]
  refine foldl_andi_one _ (fun i => ?_) _
  show IntOp.andi (IntOp.cmpi .sge (ix _) 0#32) (IntOp.cmpi .sle (ix _) 65535#32) = 1#1
  rw [sge_zero_eq (toInt_of_sge (hge _)), sle_max_eq (toInt_of_slt (hlt _))]
  rfl

/-- The table's rows gathered at the indices, as an 8192 × 8192 matrix. -/
def weights (ix : IVec S8192x1024 32) (g : FVec Ideal S65536x8 .f32) : FVec Ideal S8192x8192 .f32 :=
  shapeCast S8192x8192
    (Host.gather gather_S65536x8_S8192x1024x1_S8192x1024x8_2_0_n_n_0_2_18 g
      (broadcastInDim S8192x1024x1 ![0, 1] bcast_S8192x1024_S8192x1024x1_0_1 ix))
    shapeCasts_S8192x1024x8_S8192x8192

include hge hlt in
/-- On indices in range the decoded weights are the gathered rows: no entry is replaced. -/
theorem decoded_eq (g : FVec Ideal S65536x8 .f32) :
    shapeCast S8192x8192 (decoded ix g) shapeCasts_S8192x1024x8_S8192x8192 = weights ix g := by
  unfold weights
  refine congrArg (fun w : FVec Ideal S8192x1024x8 .f32 => shapeCast S8192x8192 w shapeCasts_S8192x1024x8_S8192x8192) ?_
  funext j
  unfold decoded startIdx
  rw [inRange_eq hge hlt, normIdx_eq hge]
  show Scalar.select 1#1 _ _ = _
  rw [select_one]

end InRange

/-- Every entry of the gathered matrix is an entry of the table, so it is finite when the table is. -/
theorem weights_finite (ix : IVec S8192x1024 32) (g : FVec Ideal S65536x8 .f32) (hg : ∀ i, ∃ r : ℝ, g i = r)
    (i : S8192x8192.Idx) : ∃ r : ℝ, weights ix g i = r := by
  unfold weights shapeCast Host.gather
  exact hg _

/-! ## The host contraction's index maps -/

private theorem coord_congr {s : Shape} (j : s.Idx) (p q : Nat) (hp : p < s.rank) (hq : q < s.rank) (h : p = q) :
    (j ⟨p, hp⟩).val = (j ⟨q, hq⟩).val := by subst h; rfl

theorem lhs_row (j : S4096x8192.Idx) (k : dot_S4096x8192_S8192x8192_S4096x8192_1_0_0_1_n_n.contr.Idx) :
    (dot_S4096x8192_S8192x8192_S4096x8192_1_0_0_1_n_n.lhsIdx j k (0 : Fin 2)).val = (j (0 : Fin 2)).val := by
  unfold DotDims.lhsIdx
  rw [dif_neg (show ¬(0 : Fin S4096x8192.rank) ∈ dot_S4096x8192_S8192x8192_S4096x8192_1_0_0_1_n_n.lhsBatch by decide),
    dif_pos (show (0 : Fin S4096x8192.rank) ∈ dot_S4096x8192_S8192x8192_S4096x8192_1_0_0_1_n_n.lhsNonContracting by decide)]
  exact coord_congr j _ _ _ _ (by decide)

theorem lhs_col (j : S4096x8192.Idx) (k : dot_S4096x8192_S8192x8192_S4096x8192_1_0_0_1_n_n.contr.Idx) :
    (dot_S4096x8192_S8192x8192_S4096x8192_1_0_0_1_n_n.lhsIdx j k (1 : Fin 2)).val = (k ⟨0, by decide⟩).val :=
  DotDims.lhsIdx_val_of_single _ (cl := (1 : Fin 2)) rfl j k

theorem rhs_row (j : S4096x8192.Idx) (k : dot_S4096x8192_S8192x8192_S4096x8192_1_0_0_1_n_n.contr.Idx) :
    (dot_S4096x8192_S8192x8192_S4096x8192_1_0_0_1_n_n.rhsIdx j k (0 : Fin 2)).val = (k ⟨0, by decide⟩).val :=
  DotDims.rhsIdx_val_of_single _ (cr := (0 : Fin 2)) rfl j k

theorem rhs_col (j : S4096x8192.Idx) (k : dot_S4096x8192_S8192x8192_S4096x8192_1_0_0_1_n_n.contr.Idx) :
    (dot_S4096x8192_S8192x8192_S4096x8192_1_0_0_1_n_n.rhsIdx j k (1 : Fin 2)).val = (j (1 : Fin 2)).val := by
  unfold DotDims.rhsIdx
  rw [dif_neg (show ¬(1 : Fin S8192x8192.rank) ∈ dot_S4096x8192_S8192x8192_S4096x8192_1_0_0_1_n_n.rhsBatch by decide),
    dif_pos (show (1 : Fin S8192x8192.rank) ∈ dot_S4096x8192_S8192x8192_S4096x8192_1_0_0_1_n_n.rhsNonContracting by decide)]
  exact coord_congr j _ _ _ _ (by decide)

/-- The host contraction at entry (a, b): row a of the left operand against row b of the matrix whose transpose is the
    right operand. -/
theorem contraction_apply (l : FVec Ideal S4096x8192 .f32) (w : FVec Ideal S8192x8192 .f32) (a : Fin 4096) (b : Fin 8192) :
    Host.dotGeneral dot_S4096x8192_S8192x8192_S4096x8192_1_0_0_1_n_n none l
        (transpose S8192x8192 [1, 0] w transposes_S8192x8192_S8192x8192_1_0) (ix2 a b)
      = ∑ k : Fin 8192, l (ix2 a k) * w (ix2 b k) := by
  show FloatOps.dotGeneral dot_S4096x8192_S8192x8192_S4096x8192_1_0_0_1_n_n none .single l _ (ix2 a b) = _
  rw [Ideal.dotGeneral_apply, ← Equiv.sum_comp (contrEquiv1 dot_S4096x8192_S8192x8192_S4096x8192_1_0_0_1_n_n 8192 rfl rfl).symm]
  refine Finset.sum_congr rfl fun k _ => ?_
  have hk := contrEquiv1_symm_val dot_S4096x8192_S8192x8192_S4096x8192_1_0_0_1_n_n 8192 rfl rfl k
  congr 1
  · refine congrArg l (funext fun d => Fin.ext ?_)
    match d with
    | ⟨0, _⟩ => exact lhs_row _ _
    | ⟨1, _⟩ => exact (lhs_col _ _).trans hk
  · refine transpose_apply [1, 0] w transposes_S8192x8192_S8192x8192_1_0 _ (ix2 b k) (fun d => ?_)
    match d with
    | ⟨0, _⟩ => exact ((rhs_row _ _).trans hk).symm
    | ⟨1, _⟩ => exact (rhs_col (ix2 a b) _).symm

/-! ## The result -/

/-- The reference's result at entry (a, b), for any inputs: the contraction of x / 32 with the decoded weights, scaled. -/
theorem refTerm_apply (x : FVec Ideal S4096x8192 .f32) (ix : IVec S8192x1024 32) (g : FVec Ideal S65536x8 .f32)
    (a : Fin 4096) (b : Fin 8192) :
    refTerm x ix g (ix2 a b)
      = (∑ k : Fin 8192, Ideal.div (x (ix2 a k)) (Ideal.ofBits .f32 0x42000000#32)
            * shapeCast S8192x8192 (decoded ix g) shapeCasts_S8192x1024x8_S8192x8192 (ix2 b k))
          * Ideal.ofBits .f32 0x41E66666#32 := by
  unfold refTerm
  show _ * Ideal.ofBits .f32 0x41E66666#32 = _
  rw [contraction_apply]
  rfl

/-- On inputs that satisfy the precondition the reference's result at (a, b) is the inner product of row a of x with
    row b of the gathered weights, times the number the kernel's scale constant denotes. -/
theorem refTerm_eq (x : FVec Ideal S4096x8192 .f32) (ix : IVec S8192x1024 32) (g : FVec Ideal S65536x8 .f32)
    (hx : ∀ i, ∃ r : ℝ, x i = r) (hg : ∀ i, ∃ r : ℝ, g i = r)
    (hge : ∀ j, IntOp.cmpi .sge (ix j) 0#32 = 1#1) (hlt : ∀ j, IntOp.cmpi .slt (ix j) 65536#32 = 1#1)
    (a : Fin 4096) (b : Fin 8192) :
    refTerm x ix g (ix2 a b) = (∑ k : Fin 8192, x (ix2 a k) * weights ix g (ix2 b k)) * ((Spec.c09 : ℝ) : EReal) := by
  rw [refTerm_apply, decoded_eq hge hlt, Spec.ofBits_32, Spec.ofBits_c288]
  simp only [Ideal.div_coe (by norm_num : (32 : ℝ) ≠ 0)]
  exact Spec.scale_finite (fun k => x (ix2 a k)) (fun k => weights ix g (ix2 b k)) (fun k => hx _)
    (fun k => weights_finite ix g hg _) Spec.c09

end Cert.ReferenceIdeal.RefValue

end
-- ==== Proof.PreFacts.lean ====
/-
  What the precondition says, read back: it is the conjunction of four "for all entries" tests, each printed as a
  reduction by "and" from the constant one. When the conjunction is one, every entry of x and of the table has
  absolute value below +∞, hence is a real number, and every index is at least 0 and below 65536 as a signed word.
-/
import proofs.«418911_j75642964017924_3_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Decode

open Cert.Pre_finite_inputs Cert.Pre_finite_inputs.Gen Idealize.ShloMosaic Idealize.ShloMosaic.ValueIdx

instance : Subsingleton S_.Idx := ⟨fun a b => funext fun d => d.elim0⟩

/-- An extended real whose absolute value is below the number the word 0x7F800000 denotes (+∞) is a real number. -/
theorem real_of_abs_lt (v : EReal)
    (h : FloatOps.cmpf (F := Ideal) (φ := .f32) .olt (FloatOps.hostAbsf (F := Ideal) (φ := .f32) v) (Ideal.ofBits .f32 0x7F800000#32) = 1#1) :
    ∃ r : ℝ, v = r := by
  have hinf : Ideal.ofBits .f32 0x7F800000#32 = ⊤ := by simp [Ideal.ofBits, Ideal.ieee]
  rw [hinf] at h
  induction v using EReal.rec with
  | bot => exact absurd h (by simp [Ideal.cmpf_def, Ideal.cmp, Ideal.hostAbsf_def, Ideal.absf_def])
  | top => exact absurd h (by simp [Ideal.cmpf_def, Ideal.cmp, Ideal.hostAbsf_def, Ideal.absf_def])
  | coe r => exact ⟨r, rfl⟩

/-- The precondition's four tests, entry by entry. -/
theorem decode {x : FVec Ideal S4096x8192 .f32} {ix : IVec S8192x1024 32} {g : FVec Ideal S65536x8 .f32}
    (h : fn (F := Ideal) x ix g = fun _ => 1#1) :
    (∀ i, ∃ r : ℝ, x i = r) ∧ (∀ i, ∃ r : ℝ, g i = r)
      ∧ (∀ j, IntOp.cmpi .sge (ix j) 0#32 = 1#1) ∧ (∀ j, IntOp.cmpi .slt (ix j) 65536#32 = 1#1) := by
  have h0 := congrFun h ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun j => ?_, fun j => ?_⟩
  · exact real_of_abs_lt _ (Host.reduce_andi_all _ _ _ _ _ h1 i)
  · exact real_of_abs_lt _ (Host.reduce_andi_all _ _ _ _ _ h2 i)
  · exact Host.reduce_andi_all _ _ _ _ _ h3 j
  · exact Host.reduce_andi_all _ _ _ _ _ h4 j

end Cert.Pre_finite_inputs.Decode

end
-- ==== Proof.lean ====
/-
  The kernel decodes a weight matrix W[n, k] = table[idx[n, k / 8], k % 8] by a host gather and computes
  (∑ₖ x[t,k] · W[n,k]) · c in a tiled matrix product, the k-sum split over eight grid points that accumulate into the
  output block; the reference computes (∑ₖ (x[t,k] / 32) · W[n,k]) · (32 · c) with the same gather behind `jnp.take`'s
  index normalisation and range mask. Under the precondition — x and the table finite, every index in [0, 65536) —
  the normalisation and the mask do nothing, every term is a real number, and the factor 1/32 cancels against the 32:
  both results are `result x W` below. The frames are the generated one for the kernel and, for the reference, its run
  as a straight line of host operations.
-/
import proofs.«418911_j75642964017924_3_alg».proof.Defs
import proofs.«418911_j75642964017924_3_alg».proof.Proof.Gen.Kernel
import proofs.«418911_j75642964017924_3_alg».proof.Proof.Gen.Kernel.Skeleton
import proofs.«418911_j75642964017924_3_alg».proof.Proof.Gen.Kernel.Launch
import proofs.«418911_j75642964017924_3_alg».proof.Proof.Gen.Kernel.Points
import proofs.«418911_j75642964017924_3_alg».proof.Proof.Gen.Kernel.Frame
import proofs.«418911_j75642964017924_3_alg».proof.Proof.Gen.KernelIdeal
import proofs.«418911_j75642964017924_3_alg».proof.Proof.Gen.KernelIdeal.Skeleton
import proofs.«418911_j75642964017924_3_alg».proof.Proof.Gen.KernelIdeal.Launch
import proofs.«418911_j75642964017924_3_alg».proof.Proof.Gen.KernelIdeal.Points
import proofs.«418911_j75642964017924_3_alg».proof.Proof.Gen.KernelIdeal.Frame
import proofs.«418911_j75642964017924_3_alg».proof.Proof.Gen.KernelIdeal.Value
import proofs.«418911_j75642964017924_3_alg».proof.Proof.Gen.ReferenceIdeal
import proofs.«418911_j75642964017924_3_alg».proof.Proof.Gen.Pre_finite_inputs
import proofs.«418911_j75642964017924_3_alg».proof.Proof.KernelValue
import proofs.«418911_j75642964017924_3_alg».proof.Proof.KernelHost
import proofs.«418911_j75642964017924_3_alg».proof.Proof.RefValue
import proofs.«418911_j75642964017924_3_alg».proof.Proof.PreFacts
import Idealize.ShloMosaic.Adequacy
import Idealize.ShloMosaic.Init

noncomputable section

open scoped BigOperators

namespace Cert.Proof

open Idealize.ShloMosaic Idealize.ShloMosaic.TcCoe Idealize.SL.Sem Idealize.ShloMosaic.ValueIdx

/-- The common result: entry (a, b) is the inner product of row a of x with row b of W, times the real number the
    kernel's scale constant denotes. -/
def result (x : FVec Ideal Cert.KernelIdeal.S4096x8192 .f32) (W : FVec Ideal Cert.KernelIdeal.S8192x8192 .f32) :
    FVec Ideal Cert.KernelIdeal.S4096x8192 .f32 := fun i =>
  (∑ k : Fin 8192, x (ix2 (⟨(i 0).val, idx2_lt0 i⟩ : Fin 4096) k) * W (ix2 (⟨(i 1).val, idx2_lt1 i⟩ : Fin 8192) k))
    * ((Cert.Spec.c09 : ℝ) : EReal)

/-- The kernel's result array is `result` of x and the gathered weights. -/
theorem kernel_result (m : (ℓ : Loc Cert.KernelIdeal.nD Cert.KernelIdeal.τ Cert.KernelIdeal.sig) → Buf (Elt Ideal) ℓ)
    (c : Dev Cert.KernelIdeal.nD) :
    Cert.KernelIdeal.Value.G2 m c
      = result (m ((c.tc : Thread Cert.KernelIdeal.nD Cert.KernelIdeal.τ).loc Cert.KernelIdeal.main_arg0))
          (Cert.KernelIdeal.KHost.weights (m ((c.tc : Thread Cert.KernelIdeal.nD Cert.KernelIdeal.τ).loc Cert.KernelIdeal.main_arg1))
            (m ((c.tc : Thread Cert.KernelIdeal.nD Cert.KernelIdeal.τ).loc Cert.KernelIdeal.main_arg2))) := by
  funext i
  obtain ⟨a, b, rfl⟩ : ∃ (a : Fin 4096) (b : Fin 8192), i = ix2 a b := ⟨i 0, i 1, eq_ix2 i⟩
  rw [Cert.KernelIdeal.KValue.G2_apply, Cert.Spec.ofBits_c09]
  dsimp only [Cert.KernelIdeal.KValue.xarr, Cert.KernelIdeal.KValue.warr]
  rw [Cert.KernelIdeal.KHost.x_entry, Cert.KernelIdeal.KHost.w_entry]
  rfl

/-- On inputs that satisfy the precondition the reference's result is `result` of x and the gathered weights. -/
theorem reference_result (x : FVec Ideal Cert.ReferenceIdeal.S4096x8192 .f32) (ix : IVec Cert.ReferenceIdeal.S8192x1024 32)
    (g : FVec Ideal Cert.ReferenceIdeal.S65536x8 .f32) (hx : ∀ i, ∃ r : ℝ, x i = r) (hg : ∀ i, ∃ r : ℝ, g i = r)
    (hge : ∀ j, IntOp.cmpi .sge (ix j) 0#32 = 1#1) (hlt : ∀ j, IntOp.cmpi .slt (ix j) 65536#32 = 1#1) :
    Cert.ReferenceIdeal.RefRun.refTerm x ix g = result x (Cert.KernelIdeal.KHost.weights ix g) := by
  funext i
  obtain ⟨a, b, rfl⟩ : ∃ (a : Fin 4096) (b : Fin 8192), i = ix2 a b := ⟨i 0, i 1, eq_ix2 i⟩
  rw [Cert.ReferenceIdeal.RefValue.refTerm_eq x ix g hx hg hge hlt a b]
  rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefRun.run (F := Ideal) m ρ)

/-- Both programs end at `result` of the shared arguments. -/
theorem algebraic : Cert.algebraic_KernelIdeal_ReferenceIdeal := by
  intro m ρ m' ρ' hpre hagree
  refine ⟨fun c => result (m ((c.tc : Thread Cert.KernelIdeal.nD Cert.KernelIdeal.τ).loc Cert.KernelIdeal.main_arg0))
      (Cert.KernelIdeal.KHost.weights (m ((c.tc : Thread Cert.KernelIdeal.nD Cert.KernelIdeal.τ).loc Cert.KernelIdeal.main_arg1))
        (m ((c.tc : Thread Cert.KernelIdeal.nD Cert.KernelIdeal.τ).loc Cert.KernelIdeal.main_arg2))), ?_, ?_⟩
  · exact (θ_run Cert.KernelIdeal.defs _ _).mono (fun r h c => ⟨(h c).1.trans (kernel_result m c), (h c).2⟩)
      (Cert.KernelIdeal.Value.run (F := Ideal) m ρ)
  · refine (θ_run Cert.ReferenceIdeal.defs _ _).mono (fun r h c => ⟨(h c).1.trans ?_, (h c).2⟩)
      (Cert.ReferenceIdeal.RefRun.run (F := Ideal) m' ρ')
    obtain ⟨hx, hg, hge, hlt⟩ := Cert.Pre_finite_inputs.Decode.decode (hpre c)
    rw [(hagree c).1, (hagree c).2.1, (hagree c).2.2]
    exact reference_result _ _ _ hx hg hge hlt

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
